-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x768 : Shape := ⟨2, ![131072, 768]⟩
abbrev S2x4915 : Shape := ⟨2, ![2, 4915]⟩
abbrev S4915 : Shape := ⟨1, ![4915]⟩
abbrev S64 : Shape := ⟨1, ![64]⟩
abbrev S2x409 : Shape := ⟨2, ![2, 409]⟩
abbrev S409 : Shape := ⟨1, ![409]⟩
abbrev S2x32 : Shape := ⟨2, ![2, 32]⟩
abbrev S32 : Shape := ⟨1, ![32]⟩
abbrev S1 : Shape := ⟨1, ![1]⟩
abbrev S_ : Shape := ⟨0, ![]⟩

class Facts : Prop where
  bcast_S_S131072x768 : S_.BroadcastsInDim S131072x768 (![] : Fin 0 → Fin S131072x768.rank)
  reducesTo_S131072x768_S_d0_1 : S131072x768.ReducesTo [0, 1] S_
  h_S_ : 0 < S_.numel
  bcast_S_S4915 : S_.BroadcastsInDim S4915 (![] : Fin 0 → Fin S4915.rank)
  reducesTo_S4915_S_d0 : S4915.ReducesTo [0] S_
  bcast_S_S64 : S_.BroadcastsInDim S64 (![] : Fin 0 → Fin S64.rank)
  reducesTo_S64_S_d0 : S64.ReducesTo [0] S_
  bcast_S_S409 : S_.BroadcastsInDim S409 (![] : Fin 0 → Fin S409.rank)
  reducesTo_S409_S_d0 : S409.ReducesTo [0] S_
  bcast_S_S32 : S_.BroadcastsInDim S32 (![] : Fin 0 → Fin S32.rank)
  reducesTo_S32_S_d0 : S32.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg8 : FVec F S32 .f32) (main_arg9 : FVec F S1 .f32) (main_v13 : IVec S_ 1) (main_v16 : IVec S409 1) : IVec S_ 1 :=
  let main_c_5 : IVec S_ 1 := constantI S_ 1 1#1
  let main_v17 : IVec S_ 1 := (fun x v => Host.reduce IntOp.andi x v reducesTo_S409_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32 .f32 := Host.absf main_arg8
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S131072x768 .f32) (main_arg1 : IVec S2x4915 32) (main_arg2 : FVec F S4915 .f32) (main_arg3 : FVec F S64 .f32) (main_arg4 : IVec S2x409 32) (main_arg5 : FVec F S409 .f32) (main_arg6 : FVec F S64 .f32) (main_arg7 : IVec S2x32 32) (main_arg8 : FVec F S32 .f32) (main_arg9 : FVec F S1 .f32) : IVec S_ 1 :=
  let main_v0 : FVec F S131072x768 .f32 := Host.absf main_arg0
  let main_cst : FVec F S_ .f32 := constant S_ .f32 0x7F800000#32
  let main_v1 : FVec F S131072x768 .f32 := broadcastInDim S131072x768 ![] bcast_S_S131072x768 main_cst
  let main_v2 : IVec S131072x768 1 := cmpf .olt main_v0 main_v1
  let main_c : IVec S_ 1 := constantI S_ 1 1#1
  let main_v3 : IVec S_ 1 := (fun x v => Host.reduce IntOp.andi x v reducesTo_S131072x768_S_d0_1 h_S_) main_v2 main_c
  let main_v4 : FVec F S4915 .f32 := Host.absf main_arg2
  let main_cst_0 : FVec F S_ .f32 := constant S_ .f32 0x7F800000#32
  let main_v5 : FVec F S4915 .f32 := broadcastInDim S4915 ![] bcast_S_S4915 main_cst_0
  let main_v6 : IVec S4915 1 := cmpf .olt main_v4 main_v5
  let main_c_1 : IVec S_ 1 := constantI S_ 1 1#1
  let main_v7 : IVec S_ 1 := (fun x v => Host.reduce IntOp.andi x v reducesTo_S4915_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S409 .f32 := Host.absf main_arg5
  let main_cst_4 : FVec F S_ .f32 := constant S_ .f32 0x7F800000#32
  let main_v15 : FVec F S409 .f32 := broadcastInDim S409 ![] bcast_S_S409 main_cst_4
  let main_v16 : IVec S409 1 := cmpf .olt main_v14 main_v15
  fn_part1 (F := F) main_arg6 main_arg8 main_arg9 main_v13 main_v16
-- ==== Kernel.lean ====
abbrev S131072x768 : Shape := ⟨2, ![131072, 768]⟩
abbrev S2x4915 : Shape := ⟨2, ![2, 4915]⟩
abbrev S4915 : Shape := ⟨1, ![4915]⟩
abbrev S64 : Shape := ⟨1, ![64]⟩
abbrev S2x409 : Shape := ⟨2, ![2, 409]⟩
abbrev S409 : Shape := ⟨1, ![409]⟩
abbrev S2x32 : Shape := ⟨2, ![2, 32]⟩
abbrev S32 : Shape := ⟨1, ![32]⟩
abbrev S1 : Shape := ⟨1, ![1]⟩
abbrev S_ : Shape := ⟨0, ![]⟩
abbrev S768x64 : Shape := ⟨2, ![768, 64]⟩
abbrev S1x4915 : Shape := ⟨2, ![1, 4915]⟩
abbrev S4915x1 : Shape := ⟨2, ![4915, 1]⟩
abbrev S4915x2 : Shape := ⟨2, ![4915, 2]⟩
abbrev S64x64 : Shape := ⟨2, ![64, 64]⟩
abbrev S1x409 : Shape := ⟨2, ![1, 409]⟩
abbrev S409x1 : Shape := ⟨2, ![409, 1]⟩
abbrev S409x2 : Shape := ⟨2, ![409, 2]⟩
abbrev S64x1 : Shape := ⟨2, ![64, 1]⟩
abbrev S1x32 : Shape := ⟨2, ![1, 32]⟩
abbrev S32x1 : Shape := ⟨2, ![32, 1]⟩
abbrev S32x2 : Shape := ⟨2, ![32, 2]⟩
abbrev S1x64 : Shape := ⟨2, ![1, 64]⟩
abbrev S1x1 : Shape := ⟨2, ![1, 1]⟩
abbrev S131072x1 : Shape := ⟨2, ![131072, 1]⟩
abbrev S2048x768 : Shape := ⟨2, ![2048, 768]⟩
abbrev S2048x1 : Shape := ⟨2, ![2048, 1]⟩
abbrev S2048x64 : Shape := ⟨2, ![2048, 64]⟩

abbrev nBuf : Space → Nat
  | .hbm => 86
  | .vmem => 10
  | .smem => 0
  | _ => 0

abbrev bufTy : (tb : Table) → Fin (tcTables nBuf tb) → BufTy
  | .hbm, ⟨0, _⟩ => ⟨S131072x768, .f32⟩
  | .hbm, ⟨1, _⟩ => ⟨S2x4915, .i32⟩
  | .hbm, ⟨2, _⟩ => ⟨S4915, .f32⟩
  | .hbm, ⟨3, _⟩ => ⟨S64, .f32⟩
  | .hbm, ⟨4, _⟩ => ⟨S2x409, .i32⟩
  | .hbm, ⟨5, _⟩ => ⟨S409, .f32⟩
  | .hbm, ⟨6, _⟩ => ⟨S64, .f32⟩
  | .hbm, ⟨7, _⟩ => ⟨S2x32, .i32⟩
  | .hbm, ⟨8, _⟩ => ⟨S32, .f32⟩
  | .hbm, ⟨9, _⟩ => ⟨S1, .f32⟩
  | .hbm, ⟨10, _⟩ => ⟨S_, .f32⟩
  | .hbm, ⟨11, _⟩ => ⟨S768x64, .f32⟩
  | .hbm, ⟨12, _⟩ => ⟨S1x4915, .i32⟩
  | .hbm, ⟨13, _⟩ => ⟨S4915, .i32⟩
  | .hbm, ⟨14, _⟩ => ⟨S1x4915, .i32⟩
  | .hbm, ⟨15, _⟩ => ⟨S4915, .i32⟩
  | .hbm, ⟨16, _⟩ => ⟨S_, .i32⟩
  | .hbm, ⟨17, _⟩ => ⟨S4915, .i32⟩
  | .hbm, ⟨18, _⟩ => ⟨S4915, .i1⟩
  | .hbm, ⟨19, _⟩ => ⟨S_, .i32⟩
  | .hbm, ⟨20, _⟩ => ⟨S4915, .i32⟩
  | .hbm, ⟨21, _⟩ => ⟨S4915, .i32⟩
  | .hbm, ⟨22, _⟩ => ⟨S4915, .i32⟩
  | .hbm, ⟨23, _⟩ => ⟨S_, .i32⟩
  | .hbm, ⟨24, _⟩ => ⟨S4915, .i32⟩
  | .hbm, ⟨25, _⟩ => ⟨S4915, .i1⟩
  | .hbm, ⟨26, _⟩ => ⟨S_, .i32⟩
  | .hbm, ⟨27, _⟩ => ⟨S4915, .i32⟩
  | .hbm, ⟨28, _⟩ => ⟨S4915, .i32⟩
  | .hbm, ⟨29, _⟩ => ⟨S4915, .i32⟩
  | .hbm, ⟨30, _⟩ => ⟨S4915x1, .i32⟩
  | .hbm, ⟨31, _⟩ => ⟨S4915x1, .i32⟩
  | .hbm, ⟨32, _⟩ => ⟨S4915x2, .i32⟩
  | .hbm, ⟨33, _⟩ => ⟨S768x64, .f32⟩
  | .hbm, ⟨34, _⟩ => ⟨S_, .f32⟩
  | .hbm, ⟨35, _⟩ => ⟨S64x64, .f32⟩
  | .hbm, ⟨36, _⟩ => ⟨S1x409, .i32⟩
  | .hbm, ⟨37, _⟩ => ⟨S409, .i32⟩
  | .hbm, ⟨38, _⟩ => ⟨S1x409, .i32⟩
  | .hbm, ⟨39, _⟩ => ⟨S409, .i32⟩
  | .hbm, ⟨40, _⟩ => ⟨S_, .i32⟩
  | .hbm, ⟨41, _⟩ => ⟨S409, .i32⟩
  | .hbm, ⟨42, _⟩ => ⟨S409, .i1⟩
  | .hbm, ⟨43, _⟩ => ⟨S_, .i32⟩
  | .hbm, ⟨44, _⟩ => ⟨S409, .i32⟩
  | .hbm, ⟨45, _⟩ => ⟨S409, .i32⟩
  | .hbm, ⟨46, _⟩ => ⟨S409, .i32⟩
  | .hbm, ⟨47, _⟩ => ⟨S_, .i32⟩
  | .hbm, ⟨48, _⟩ => ⟨S409, .i32⟩
  | .hbm, ⟨49, _⟩ => ⟨S409, .i1⟩
  | .hbm, ⟨50, _⟩ => ⟨S_, .i32⟩
  | .hbm, ⟨51, _⟩ => ⟨S409, .i32⟩
  | .hbm, ⟨52, _⟩ => ⟨S409, .i32⟩
  | .hbm, ⟨53, _⟩ => ⟨S409, .i32⟩
  | .hbm, ⟨54, _⟩ => ⟨S409x1, .i32⟩
  | .hbm, ⟨55, _⟩ => ⟨S409x1, .i32⟩
  | .hbm, ⟨56, _⟩ => ⟨S409x2, .i32⟩
  | .hbm, ⟨57, _⟩ => ⟨S64x64, .f32⟩
  | .hbm, ⟨58, _⟩ => ⟨S_, .f32⟩
  | .hbm, ⟨59, _⟩ => ⟨S64x1, .f32⟩
  | .hbm, ⟨60, _⟩ => ⟨S1x32, .i32⟩
  | .hbm, ⟨61, _⟩ => ⟨S32, .i32⟩
  | .hbm, ⟨62, _⟩ => ⟨S1x32, .i32⟩
  | .hbm, ⟨63, _⟩ => ⟨S32, .i32⟩
  | .hbm, ⟨64, _⟩ => ⟨S_, .i32⟩
  | .hbm, ⟨65, _⟩ => ⟨S32, .i32⟩
  | .hbm, ⟨66, _⟩ => ⟨S32, .i1⟩
  | .hbm, ⟨67, _⟩ => ⟨S_, .i32⟩
  | .hbm, ⟨68, _⟩ => ⟨S32, .i32⟩
  | .hbm, ⟨69, _⟩ => ⟨S32, .i32⟩
  | .hbm, ⟨70, _⟩ => ⟨S32, .i32⟩
  | .hbm, ⟨71, _⟩ => ⟨S_, .i32⟩
  | .hbm, ⟨72, _⟩ => ⟨S32, .i32⟩
  | .hbm, ⟨73, _⟩ => ⟨S32, .i1⟩
  | .hbm, ⟨74, _⟩ => ⟨S_, .i32⟩
  | .hbm, ⟨75, _⟩ => ⟨S32, .i32⟩
  | .hbm, ⟨76, _⟩ => ⟨S32, .i32⟩
  | .hbm, ⟨77, _⟩ => ⟨S32, .i32⟩
  | .hbm, ⟨78, _⟩ => ⟨S32x1, .i32⟩
  | .hbm, ⟨79, _⟩ => ⟨S32x1, .i32⟩
  | .hbm, ⟨80, _⟩ => ⟨S32x2, .i32⟩
  | .hbm, ⟨81, _⟩ => ⟨S64x1, .f32⟩
  | .hbm, ⟨82, _⟩ => ⟨S1x64, .f32⟩
  | .hbm, ⟨83, _⟩ => ⟨S1x64, .f32⟩
  | .hbm, ⟨84, _⟩ => ⟨S1x1, .f32⟩
  | .hbm, ⟨85, _⟩ => ⟨S131072x1, .f32⟩
  | .local _ .vmem, ⟨0, _⟩ => ⟨S2048x768, .f32⟩
  | .local _ .vmem, ⟨1, _⟩ => ⟨S2048x768, .f32⟩
  | .local _ .vmem, ⟨2, _⟩ => ⟨S768x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S2048x1, .f32⟩
  | .local _ .vmem, ⟨9, _⟩ => ⟨S2048x1, .f32⟩
  | _, _ => ⟨S131072x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S768x64 : S_.BroadcastsInDim S768x64 (![] : Fin 0 → Fin S768x64.rank)
  slices_S2x4915_S1x4915_0_0 : S2x4915.Slices ![0, 0] S1x4915
  shapeCasts_S1x4915_S4915 : S1x4915.ShapeCasts S4915
  slices_S2x4915_S1x4915_1_0 : S2x4915.Slices ![1, 0] S1x4915
  bcast_S_S4915 : S_.BroadcastsInDim S4915 (![] : Fin 0 → Fin S4915.rank)
  bcast_S4915_S4915x1_0 : S4915.BroadcastsInDim S4915x1 (![0] : Fin 1 → Fin S4915x1.rank)
  concatenates_S4915x1_S4915x1_S4915x2_d1 : Shape.Concatenates [S4915x1, S4915x1] S4915x2 1
  bcast_S_S64x64 : S_.BroadcastsInDim S64x64 (![] : Fin 0 → Fin S64x64.rank)
  slices_S2x409_S1x409_0_0 : S2x409.Slices ![0, 0] S1x409
  shapeCasts_S1x409_S409 : S1x409.ShapeCasts S409
  slices_S2x409_S1x409_1_0 : S2x409.Slices ![1, 0] S1x409
  bcast_S_S409 : S_.BroadcastsInDim S409 (![] : Fin 0 → Fin S409.rank)
  bcast_S409_S409x1_0 : S409.BroadcastsInDim S409x1 (![0] : Fin 1 → Fin S409x1.rank)
  concatenates_S409x1_S409x1_S409x2_d1 : Shape.Concatenates [S409x1, S409x1] S409x2 1
  bcast_S_S64x1 : S_.BroadcastsInDim S64x1 (![] : Fin 0 → Fin S64x1.rank)
  slices_S2x32_S1x32_0_0 : S2x32.Slices ![0, 0] S1x32
  shapeCasts_S1x32_S32 : S1x32.ShapeCasts S32
  slices_S2x32_S1x32_1_0 : S2x32.Slices ![1, 0] S1x32
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  shapeCasts_S64_S1x64 : S64.ShapeCasts S1x64
  shapeCasts_S1_S1x1 : S1.ShapeCasts S1x1
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S768x64_S4915x2_S4915_n_01_01_1_wf : ScatterDims.WF S768x64 S4915x2 S4915 [] [0, 1] [0, 1] 1
  scatter_S64x64_S409x2_S409_n_01_01_1_wf : ScatterDims.WF S64x64 S409x2 S409 [] [0, 1] [0, 1] 1
  scatter_S64x1_S32x2_S32_n_01_01_1_wf : ScatterDims.WF S64x1 S32x2 S32 [] [0, 1] [0, 1] 1
  dot_S2048x768_S768x64_S2048x64_1_0_0_1_n_n_wf : DotDims.WF S2048x768 S768x64 S2048x64 [1] [0] [0] [1] [] []
  dot_S2048x64_S64x64_S2048x64_1_0_0_1_n_n_wf : DotDims.WF S2048x64 S64x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S131072x768.size a
  hwx0_0 : ∀ i : grid0.Coords, EltTy.bits .f32 = 32 ∨ (Rect.block (s := S131072x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S131072x1.size a
  hwx0_7 : ∀ i : grid0.Coords, EltTy.bits .f32 = 32 ∨ (Rect.block (s := S131072x1) S2048x1.size (cc0_transform_7 i) (hinb0_7 i)).WholeWords (EltTy.packing .f32)

variable [Facts₀]

def scatter_S768x64_S4915x2_S4915_n_01_01_1 : ScatterDims S768x64 S4915x2 S4915 where
  updateWindowDims := []
  insertedWindowDims := [0, 1]
  scatterDimsToOperandDims := [0, 1]
  indexVectorDim := 1
  wf := scatter_S768x64_S4915x2_S4915_n_01_01_1_wf
def scatter_S64x64_S409x2_S409_n_01_01_1 : ScatterDims S64x64 S409x2 S409 where
  updateWindowDims := []
  insertedWindowDims := [0, 1]
  scatterDimsToOperandDims := [0, 1]
  indexVectorDim := 1
  wf := scatter_S64x64_S409x2_S409_n_01_01_1_wf
def scatter_S64x1_S32x2_S32_n_01_01_1 : ScatterDims S64x1 S32x2 S32 where
  updateWindowDims := []
  insertedWindowDims := [0, 1]
  scatterDimsToOperandDims := [0, 1]
  indexVectorDim := 1
  wf := scatter_S64x1_S32x2_S32_n_01_01_1_wf
def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v59) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x768 : Shape := ⟨2, ![131072, 768]⟩
abbrev S2x4915 : Shape := ⟨2, ![2, 4915]⟩
abbrev S4915 : Shape := ⟨1, ![4915]⟩
abbrev S64 : Shape := ⟨1, ![64]⟩
abbrev S2x409 : Shape := ⟨2, ![2, 409]⟩
abbrev S409 : Shape := ⟨1, ![409]⟩
abbrev S2x32 : Shape := ⟨2, ![2, 32]⟩
abbrev S32 : Shape := ⟨1, ![32]⟩
abbrev S1 : Shape := ⟨1, ![1]⟩
abbrev S_ : Shape := ⟨0, ![]⟩
abbrev S768x64 : Shape := ⟨2, ![768, 64]⟩
abbrev S1x4915 : Shape := ⟨2, ![1, 4915]⟩
abbrev S4915x1 : Shape := ⟨2, ![4915, 1]⟩
abbrev S4915x2 : Shape := ⟨2, ![4915, 2]⟩
abbrev S64x64 : Shape := ⟨2, ![64, 64]⟩
abbrev S1x409 : Shape := ⟨2, ![1, 409]⟩
abbrev S409x1 : Shape := ⟨2, ![409, 1]⟩
abbrev S409x2 : Shape := ⟨2, ![409, 2]⟩
abbrev S64x1 : Shape := ⟨2, ![64, 1]⟩
abbrev S1x32 : Shape := ⟨2, ![1, 32]⟩
abbrev S32x1 : Shape := ⟨2, ![32, 1]⟩
abbrev S32x2 : Shape := ⟨2, ![32, 2]⟩
abbrev S131072x64 : Shape := ⟨2, ![131072, 64]⟩
abbrev S1x64 : Shape := ⟨2, ![1, 64]⟩
abbrev S131072x1 : Shape := ⟨2, ![131072, 1]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S131072x768, .f32⟩
  | .hbm, ⟨1, _⟩ => ⟨S2x4915, .i32⟩
  | .hbm, ⟨2, _⟩ => ⟨S4915, .f32⟩
  | .hbm, ⟨3, _⟩ => ⟨S64, .f32⟩
  | .hbm, ⟨4, _⟩ => ⟨S2x409, .i32⟩
  | .hbm, ⟨5, _⟩ => ⟨S409, .f32⟩
  | .hbm, ⟨6, _⟩ => ⟨S64, .f32⟩
  | .hbm, ⟨7, _⟩ => ⟨S2x32, .i32⟩
  | .hbm, ⟨8, _⟩ => ⟨S32, .f32⟩
  | .hbm, ⟨9, _⟩ => ⟨S1, .f32⟩
  | .hbm, ⟨10, _⟩ => ⟨S_, .f32⟩
  | .hbm, ⟨11, _⟩ => ⟨S768x64, .f32⟩
  | .hbm, ⟨12, _⟩ => ⟨S1x4915, .i32⟩
  | .hbm, ⟨13, _⟩ => ⟨S4915, .i32⟩
  | .hbm, ⟨14, _⟩ => ⟨S1x4915, .i32⟩
  | .hbm, ⟨15, _⟩ => ⟨S4915, .i32⟩
  | .hbm, ⟨16, _⟩ => ⟨S_, .i32⟩
  | .hbm, ⟨17, _⟩ => ⟨S4915, .i32⟩
  | .hbm, ⟨18, _⟩ => ⟨S4915, .i1⟩
  | .hbm, ⟨19, _⟩ => ⟨S_, .i32⟩
  | .hbm, ⟨20, _⟩ => ⟨S4915, .i32⟩
  | .hbm, ⟨21, _⟩ => ⟨S4915, .i32⟩
  | .hbm, ⟨22, _⟩ => ⟨S4915, .i32⟩
  | .hbm, ⟨23, _⟩ => ⟨S_, .i32⟩
  | .hbm, ⟨24, _⟩ => ⟨S4915, .i32⟩
  | .hbm, ⟨25, _⟩ => ⟨S4915, .i1⟩
  | .hbm, ⟨26, _⟩ => ⟨S_, .i32⟩
  | .hbm, ⟨27, _⟩ => ⟨S4915, .i32⟩
  | .hbm, ⟨28, _⟩ => ⟨S4915, .i32⟩
  | .hbm, ⟨29, _⟩ => ⟨S4915, .i32⟩
  | .hbm, ⟨30, _⟩ => ⟨S4915x1, .i32⟩
  | .hbm, ⟨31, _⟩ => ⟨S4915x1, .i32⟩
  | .hbm, ⟨32, _⟩ => ⟨S4915x2, .i32⟩
  | .hbm, ⟨33, _⟩ => ⟨S768x64, .f32⟩
  | .hbm, ⟨34, _⟩ => ⟨S_, .f32⟩
  | .hbm, ⟨35, _⟩ => ⟨S64x64, .f32⟩
  | .hbm, ⟨36, _⟩ => ⟨S1x409, .i32⟩
  | .hbm, ⟨37, _⟩ => ⟨S409, .i32⟩
  | .hbm, ⟨38, _⟩ => ⟨S1x409, .i32⟩
  | .hbm, ⟨39, _⟩ => ⟨S409, .i32⟩
  | .hbm, ⟨40, _⟩ => ⟨S_, .i32⟩
  | .hbm, ⟨41, _⟩ => ⟨S409, .i32⟩
  | .hbm, ⟨42, _⟩ => ⟨S409, .i1⟩
  | .hbm, ⟨43, _⟩ => ⟨S_, .i32⟩
  | .hbm, ⟨44, _⟩ => ⟨S409, .i32⟩
  | .hbm, ⟨45, _⟩ => ⟨S409, .i32⟩
  | .hbm, ⟨46, _⟩ => ⟨S409, .i32⟩
  | .hbm, ⟨47, _⟩ => ⟨S_, .i32⟩
  | .hbm, ⟨48, _⟩ => ⟨S409, .i32⟩
  | .hbm, ⟨49, _⟩ => ⟨S409, .i1⟩
  | .hbm, ⟨50, _⟩ => ⟨S_, .i32⟩
  | .hbm, ⟨51, _⟩ => ⟨S409, .i32⟩
  | .hbm, ⟨52, _⟩ => ⟨S409, .i32⟩
  | .hbm, ⟨53, _⟩ => ⟨S409, .i32⟩
  | .hbm, ⟨54, _⟩ => ⟨S409x1, .i32⟩
  | .hbm, ⟨55, _⟩ => ⟨S409x1, .i32⟩
  | .hbm, ⟨56, _⟩ => ⟨S409x2, .i32⟩
  | .hbm, ⟨57, _⟩ => ⟨S64x64, .f32⟩
  | .hbm, ⟨58, _⟩ => ⟨S_, .f32⟩
  | .hbm, ⟨59, _⟩ => ⟨S64x1, .f32⟩
  | .hbm, ⟨60, _⟩ => ⟨S1x32, .i32⟩
  | .hbm, ⟨61, _⟩ => ⟨S32, .i32⟩
  | .hbm, ⟨62, _⟩ => ⟨S1x32, .i32⟩
  | .hbm, ⟨63, _⟩ => ⟨S32, .i32⟩
  | .hbm, ⟨64, _⟩ => ⟨S_, .i32⟩
  | .hbm, ⟨65, _⟩ => ⟨S32, .i32⟩
  | .hbm, ⟨66, _⟩ => ⟨S32, .i1⟩
  | .hbm, ⟨67, _⟩ => ⟨S_, .i32⟩
  | .hbm, ⟨68, _⟩ => ⟨S32, .i32⟩
  | .hbm, ⟨69, _⟩ => ⟨S32, .i32⟩
  | .hbm, ⟨70, _⟩ => ⟨S32, .i32⟩
  | .hbm, ⟨71, _⟩ => ⟨S_, .i32⟩
  | .hbm, ⟨72, _⟩ => ⟨S32, .i32⟩
  | .hbm, ⟨73, _⟩ => ⟨S32, .i1⟩
  | .hbm, ⟨74, _⟩ => ⟨S_, .i32⟩
  | .hbm, ⟨75, _⟩ => ⟨S32, .i32⟩
  | .hbm, ⟨76, _⟩ => ⟨S32, .i32⟩
  | .hbm, ⟨77, _⟩ => ⟨S32, .i32⟩
  | .hbm, ⟨78, _⟩ => ⟨S32x1, .i32⟩
  | .hbm, ⟨79, _⟩ => ⟨S32x1, .i32⟩
  | .hbm, ⟨80, _⟩ => ⟨S32x2, .i32⟩
  | .hbm, ⟨81, _⟩ => ⟨S64x1, .f32⟩
  | .hbm, ⟨82, _⟩ => ⟨S131072x64, .f32⟩
  | .hbm, ⟨83, _⟩ => ⟨S1x64, .f32⟩
  | .hbm, ⟨84, _⟩ => ⟨S131072x64, .f32⟩
  | .hbm, ⟨85, _⟩ => ⟨S131072x64, .f32⟩
  | .hbm, ⟨86, _⟩ => ⟨S_, .f32⟩
  | .hbm, ⟨87, _⟩ => ⟨S131072x64, .f32⟩
  | .hbm, ⟨88, _⟩ => ⟨S131072x64, .f32⟩
  | .hbm, ⟨89, _⟩ => ⟨S131072x64, .f32⟩
  | .hbm, ⟨90, _⟩ => ⟨S1x64, .f32⟩
  | .hbm, ⟨91, _⟩ => ⟨S131072x64, .f32⟩
  | .hbm, ⟨92, _⟩ => ⟨S131072x64, .f32⟩
  | .hbm, ⟨93, _⟩ => ⟨S_, .f32⟩
  | .hbm, ⟨94, _⟩ => ⟨S131072x64, .f32⟩
  | .hbm, ⟨95, _⟩ => ⟨S131072x64, .f32⟩
  | .hbm, ⟨96, _⟩ => ⟨S131072x1, .f32⟩
  | .hbm, ⟨97, _⟩ => ⟨S1x1, .f32⟩
  | .hbm, ⟨98, _⟩ => ⟨S131072x1, .f32⟩
  | .hbm, ⟨99, _⟩ => ⟨S131072x1, .f32⟩
  | _, _ => ⟨S131072x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call0_cst : Ref sig .tc := ⟨.hbm, 86, rfl⟩
abbrev main_call0_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call1_cst : Ref sig .tc := ⟨.hbm, 93, rfl⟩
abbrev main_call1_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  bcast_S_S768x64 : S_.BroadcastsInDim S768x64 (![] : Fin 0 → Fin S768x64.rank)
  slices_S2x4915_S1x4915_0_0 : S2x4915.Slices ![0, 0] S1x4915
  shapeCasts_S1x4915_S4915 : S1x4915.ShapeCasts S4915
  slices_S2x4915_S1x4915_1_0 : S2x4915.Slices ![1, 0] S1x4915
  bcast_S_S4915 : S_.BroadcastsInDim S4915 (![] : Fin 0 → Fin S4915.rank)
  bcast_S4915_S4915x1_0 : S4915.BroadcastsInDim S4915x1 (![0] : Fin 1 → Fin S4915x1.rank)
  concatenates_S4915x1_S4915x1_S4915x2_d1 : Shape.Concatenates [S4915x1, S4915x1] S4915x2 1
  bcast_S_S64x64 : S_.BroadcastsInDim S64x64 (![] : Fin 0 → Fin S64x64.rank)
  slices_S2x409_S1x409_0_0 : S2x409.Slices ![0, 0] S1x409
  shapeCasts_S1x409_S409 : S1x409.ShapeCasts S409
  slices_S2x409_S1x409_1_0 : S2x409.Slices ![1, 0] S1x409
  bcast_S_S409 : S_.BroadcastsInDim S409 (![] : Fin 0 → Fin S409.rank)
  bcast_S409_S409x1_0 : S409.BroadcastsInDim S409x1 (![0] : Fin 1 → Fin S409x1.rank)
  concatenates_S409x1_S409x1_S409x2_d1 : Shape.Concatenates [S409x1, S409x1] S409x2 1
  bcast_S_S64x1 : S_.BroadcastsInDim S64x1 (![] : Fin 0 → Fin S64x1.rank)
  slices_S2x32_S1x32_0_0 : S2x32.Slices ![0, 0] S1x32
  shapeCasts_S1x32_S32 : S1x32.ShapeCasts S32
  slices_S2x32_S1x32_1_0 : S2x32.Slices ![1, 0] S1x32
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  scatter_S768x64_S4915x2_S4915_n_01_01_1_wf : ScatterDims.WF S768x64 S4915x2 S4915 [] [0, 1] [0, 1] 1
  scatter_S64x64_S409x2_S409_n_01_01_1_wf : ScatterDims.WF S64x64 S409x2 S409 [] [0, 1] [0, 1] 1
  scatter_S64x1_S32x2_S32_n_01_01_1_wf : ScatterDims.WF S64x1 S32x2 S32 [] [0, 1] [0, 1] 1
  dot_S131072x768_S768x64_S131072x64_1_0_0_1_n_n_wf : DotDims.WF S131072x768 S768x64 S131072x64 [1] [0] [0] [1] [] []
  dot_S131072x64_S64x64_S131072x64_1_0_0_1_n_n_wf : DotDims.WF S131072x64 S64x64 S131072x64 [1] [0] [0] [1] [] []
  dot_S131072x64_S64x1_S131072x1_1_0_0_1_n_n_wf : DotDims.WF S131072x64 S64x1 S131072x1 [1] [0] [0] [1] [] []

variable [Facts₀]

def scatter_S768x64_S4915x2_S4915_n_01_01_1 : ScatterDims S768x64 S4915x2 S4915 where
  updateWindowDims := []
  insertedWindowDims := [0, 1]
  scatterDimsToOperandDims := [0, 1]
  indexVectorDim := 1
  wf := scatter_S768x64_S4915x2_S4915_n_01_01_1_wf
def scatter_S64x64_S409x2_S409_n_01_01_1 : ScatterDims S64x64 S409x2 S409 where
  updateWindowDims := []
  insertedWindowDims := [0, 1]
  scatterDimsToOperandDims := [0, 1]
  indexVectorDim := 1
  wf := scatter_S64x64_S409x2_S409_n_01_01_1_wf
def scatter_S64x1_S32x2_S32_n_01_01_1 : ScatterDims S64x1 S32x2 S32 where
  updateWindowDims := []
  insertedWindowDims := [0, 1]
  scatterDimsToOperandDims := [0, 1]
  indexVectorDim := 1
  wf := scatter_S64x1_S32x2_S32_n_01_01_1_wf
def dot_S131072x768_S768x64_S131072x64_1_0_0_1_n_n : DotDims S131072x768 S768x64 S131072x64 where
  lhsContracting := [1]
  rhsContracting := [0]
  lhsNonContracting := [0]
  rhsNonContracting := [1]
  lhsBatch := []
  rhsBatch := []
  wf := dot_S131072x768_S768x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.HostArrays.lean ====
/-
  The arrays the kernel region finds, as functions of the program's arguments. Before the region the host builds,
  from each coordinate list and value vector, the dense weight matrix (negative coordinates wrapped, then every
  value added into a zero matrix at its coordinates) by exactly the operations the reference uses: the two programs'
  three weight matrices are the same functions of the arguments. The host also recasts each bias vector as a
  one-row matrix; the reference makes the same row by a broadcast in place, and a recast vector and its broadcast
  along the new axis are one array.
-/
import proofs.«112510_j27573690040595_1_alg».proof.Proof.Gen.KernelIdeal.Frame
import proofs.«112510_j27573690040595_1_alg».proof.Proof.Gen.ReferenceIdeal.Read
import proofs.«112510_j27573690040595_1_alg».proof.Proof.LibCastBcast
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 4000000 in
/-- The first layer's weights as the region finds them: the reference's densified matrix of the same arguments. -/
theorem weights1 (c : Dev nD) :
    (V m c main_v18 : S768x64.Idx → EReal)
      = Cert.ReferenceIdeal.Read.val_main_v18 (F := Ideal) (m ((c : Thread nD τ).loc main_arg1)) (m ((c : Thread nD τ).loc main_arg2)) := by
  dsimp only [Gen.V, Gen.hostOps0]
  after_results
  rfl

set_option maxRecDepth 8192 in
set_option maxHeartbeats 4000000 in
/-- The second layer's weights. -/
theorem weights2 (c : Dev nD) :
    (V m c main_v37 : S64x64.Idx → EReal)
      = Cert.ReferenceIdeal.Read.val_main_v37 (F := Ideal) (m ((c : Thread nD τ).loc main_arg4)) (m ((c : Thread nD τ).loc main_arg5)) := by
  dsimp only [Gen.V, Gen.hostOps0]
  after_results
  rfl

set_option maxRecDepth 8192 in
set_option maxHeartbeats 4000000 in
/-- The third layer's weights. -/
theorem weights3 (c : Dev nD) :
    (V m c main_v56 : S64x1.Idx → EReal)
      = Cert.ReferenceIdeal.Read.val_main_v56 (F := Ideal) (m ((c : Thread nD τ).loc main_arg7)) (m ((c : Thread nD τ).loc main_arg8)) := by
  dsimp only [Gen.V, Gen.hostOps0]
  after_results
  rfl

set_option maxRecDepth 8192 in
set_option maxHeartbeats 4000000 in
/-- The first bias, recast as a row, is the reference's broadcast row. -/
theorem bias1 (c : Dev nD) :
    (V m c main_v57 : S1x64.Idx → EReal)
      = Cert.ReferenceIdeal.Read.val_main_v58 (F := Ideal) (m ((c : Thread nD τ).loc main_arg3)) := by
  have e : (V m c main_v57 : S1x64.Idx → EReal)
      = shapeCast S1x64 (m ((c : Thread nD τ).loc main_arg3)) Facts₀.shapeCasts_S64_S1x64 := by
    dsimp only [Gen.V, Gen.hostOps0]
    after_results
    rfl
  rw [e]
  exact Cert.LibCastBcast.row_cast_eq_bcast _ _ _

set_option maxRecDepth 8192 in
set_option maxHeartbeats 4000000 in
/-- The second bias. -/
theorem bias2 (c : Dev nD) :
    (V m c main_v58 : S1x64.Idx → EReal)
      = Cert.ReferenceIdeal.Read.val_main_v63 (F := Ideal) (m ((c : Thread nD τ).loc main_arg6)) := by
  have e : (V m c main_v58 : S1x64.Idx → EReal)
      = shapeCast S1x64 (m ((c : Thread nD τ).loc main_arg6)) Facts₀.shapeCasts_S64_S1x64 := by
    dsimp only [Gen.V, Gen.hostOps0]
    after_results
    rfl
  rw [e]
  exact Cert.LibCastBcast.row_cast_eq_bcast _ _ _

set_option maxRecDepth 8192 in
set_option maxHeartbeats 4000000 in
/-- The third bias, a single number recast as a one-by-one matrix. -/
theorem bias3 (c : Dev nD) :
    (V m c main_v59 : S1x1.Idx → EReal)
      = Cert.ReferenceIdeal.Read.val_main_v68 (F := Ideal) (m ((c : Thread nD τ).loc main_arg9)) := by
  have e : (V m c main_v59 : S1x1.Idx → EReal)
      = shapeCast S1x1 (m ((c : Thread nD τ).loc main_arg9)) Facts₀.shapeCasts_S1_S1x1 := by
    dsimp only [Gen.V, Gen.hostOps0]
    after_results
    rfl
  rw [e]
  exact Cert.LibCastBcast.row_cast_eq_bcast _ _ _

end Cert.KernelIdeal.HostArrays

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Mlp.lean ====
/-
  A three-layer perceptron on the extended reals, as ONE function of its input matrix, weights and biases.

  A dense layer sends the matrix x : [R, K] to x · w + b : [R, C], the bias a single row added to every row of the
  product; the threshold keeps the larger of an entry and zero. The network is dense, threshold, dense, threshold,
  dense. Entry (r, c) of a dense layer reads only row r of its input, so entry (r, u) of the whole network reads
  only row r of x: a block of consecutive rows of the result is the network applied to that block of rows of x.

  The last part reads one dense layer, as a vector unit computes it (a product accumulated into zero, then the
  bias row broadcast over the rows) and as the host computes it (a general product, then the bias row broadcast
  in place), as `affine`; and the two spellings of the threshold as `relu`.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«112510_j27573690040595_1_alg».proof.Proof.LibDot

noncomputable section

open scoped BigOperators

namespace Cert.Mlp

open Idealize.ShloMosaic Idealize.ShloMosaic.ValueIdx

/-- A matrix of extended reals with R rows and C columns. -/
abbrev Mat (R C : Nat) : Type := (⟨2, ![R, C]⟩ : Shape).Idx → EReal

/-- The threshold: the single-precision zero word read as an extended real (never evaluated: both programs
    compare against the same word). -/
def zeroWord : EReal := FloatOps.ofBits (F := Ideal) .f32 0x00000000#32

/-- A dense layer: entry (r, c) is the sum over k of x(r, k) · w(k, c), plus the bias row's entry c. -/
def affine {R K C : Nat} (x : Mat R K) (w : Mat K C) (b : Mat 1 C) : Mat R C :=
  fun i => (∑ k : Fin K, x (ix2 (i 0) k) * w (ix2 k (i 1))) + b (ix2 0 (i 1))

/-- The threshold, entry by entry. -/
def relu {R C : Nat} (a : Mat R C) : Mat R C := fun i => max (a i) zeroWord

/-- The network: 768 inputs, two hidden layers of 64 units, one output. -/
def mlp {R : Nat} (x : Mat R 768) (w1 : Mat 768 64) (b1 : Mat 1 64) (w2 : Mat 64 64) (b2 : Mat 1 64)
    (w3 : Mat 64 1) (b3 : Mat 1 1) : Mat R 1 :=
  affine (relu (affine (relu (affine x w1 b1)) w2 b2)) w3 b3

/-! ## Row locality -/

/-- Entry (r, c) of a dense layer depends only on row r of its input. -/
theorem affine_rows {R R' K C : Nat} (x : Mat R K) (x' : Mat R' K) (w : Mat K C) (b : Mat 1 C) (r : Fin R) (r' : Fin R')
    (h : ∀ k : Fin K, x (ix2 r k) = x' (ix2 r' k)) (c : Fin C) : affine x w b (ix2 r c) = affine x' w b (ix2 r' c) := by
  show (∑ k : Fin K, x (ix2 r k) * w (ix2 k c)) + b (ix2 0 c) = (∑ k : Fin K, x' (ix2 r' k) * w (ix2 k c)) + b (ix2 0 c)
  simp only [h]

/-- So does the threshold of it. -/
theorem relu_rows {R R' C : Nat} (a : Mat R C) (a' : Mat R' C) (r : Fin R) (r' : Fin R') (c : Fin C)
    (h : a (ix2 r c) = a' (ix2 r' c)) : relu a (ix2 r c) = relu a' (ix2 r' c) := by
  show max (a (ix2 r c)) zeroWord = max (a' (ix2 r' c)) zeroWord
  rw [h]

/-- Entry (r, u) of the network depends only on row r of the input matrix. -/
theorem mlp_rows {R R' : Nat} (x : Mat R 768) (x' : Mat R' 768) (w1 : Mat 768 64) (b1 : Mat 1 64) (w2 : Mat 64 64)
    (b2 : Mat 1 64) (w3 : Mat 64 1) (b3 : Mat 1 1) (r : Fin R) (r' : Fin R')
    (h : ∀ l : Fin 768, x (ix2 r l) = x' (ix2 r' l)) (u : Fin 1) :
    mlp x w1 b1 w2 b2 w3 b3 (ix2 r u) = mlp x' w1 b1 w2 b2 w3 b3 (ix2 r' u) := by
  unfold mlp
  refine affine_rows _ _ w3 b3 r r' (fun k => relu_rows _ _ r r' k ?_) u
  refine affine_rows _ _ w2 b2 r r' (fun j => relu_rows _ _ r r' j ?_) k
  exact affine_rows x x' w1 b1 r r' h j

/-! ## A dense layer and the threshold, as the two programs spell them -/

section Spellings

variable {R K C : Nat} (d : DotDims ⟨2, ![R, K]⟩ ⟨2, ![K, C]⟩ ⟨2, ![R, C]⟩)
  (hl : d.lhsContracting = [1]) (hr : d.rhsContracting = [0]) (hln : d.lhsNonContracting = [0])
  (hrn : d.rhsNonContracting = [1]) (hlb : d.lhsBatch = []) (hrb : d.rhsBatch = [])

/-- The bias row broadcast over R rows reads, at (r, c), the row's entry c. -/
theorem bias_rows_at (b : Mat 1 C) (hbb : (⟨2, ![1, C]⟩ : Shape).Broadcasts ⟨2, ![R, C]⟩) (r : Fin R) (c : Fin C) :
    broadcastTo ⟨2, ![R, C]⟩ b hbb (ix2 r c) = b (ix2 0 c) := by
  refine broadcastTo_apply b hbb (ix2 r c) (ix2 0 c) fun a => ?_
  match a with
  | ⟨0, _⟩ => show 0 = if (1 : Nat) = 1 then 0 else _; rw [if_pos rfl]
  | ⟨1, _⟩ =>
    show c.val = if C = 1 then 0 else c.val
    split
    · have := c.isLt; omega
    · rfl

/-- The same for the host's broadcast in place along both axes. -/
theorem bias_rows_in_dim_at (b : Mat 1 C)
    (hb : (⟨2, ![1, C]⟩ : Shape).BroadcastsInDim ⟨2, ![R, C]⟩ (![0, 1] : Fin 2 → Fin (⟨2, ![R, C]⟩ : Shape).rank))
    (r : Fin R) (c : Fin C) :
    broadcastInDim ⟨2, ![R, C]⟩ (![0, 1] : Fin 2 → Fin (⟨2, ![R, C]⟩ : Shape).rank) hb b (ix2 r c) = b (ix2 0 c) := by
  refine broadcastInDim_apply _ hb b (ix2 r c) (ix2 0 c) fun a => ?_
  match a with
  | ⟨0, _⟩ => show 0 = if (1 : Nat) = 1 then 0 else _; rw [if_pos rfl]
  | ⟨1, _⟩ =>
    show c.val = if C = 1 then 0 else c.val
    split
    · have := c.isLt; omega
    · rfl

include hl hr hln hrn hlb hrb in
/-- The vector unit's dense layer: both operands narrowed (the identity on extended reals), the weights and the
    bias row recast to their own shapes (the identity), the product accumulated into zero, the bias row broadcast
    over the rows and added. -/
theorem vector_affine (x : FVec Ideal ⟨2, ![R, K]⟩ .f32) (w : FVec Ideal ⟨2, ![K, C]⟩ .f32) (b : FVec Ideal ⟨2, ![1, C]⟩ .f32)
    (hx : FTy.bf16.bits < FTy.f32.bits) (hw : (⟨2, ![K, C]⟩ : Shape).ShapeCasts ⟨2, ![K, C]⟩)
    (hbc : (⟨2, ![1, C]⟩ : Shape).ShapeCasts ⟨2, ![1, C]⟩) (hbb : (⟨2, ![1, C]⟩ : Shape).Broadcasts ⟨2, ![R, C]⟩) :
    addf (matmul d none (truncf .bf16 x hx) (truncf .bf16 (shapeCast ⟨2, ![K, C]⟩ w hw) hx) (constant ⟨2, ![R, C]⟩ .f32 0x00000000#32))
      (broadcastTo ⟨2, ![R, C]⟩ (shapeCast ⟨2, ![1, C]⟩ b hbc) hbb) = affine x w b := by
  funext i
  obtain ⟨r, c, rfl⟩ : ∃ (r : Fin R) (c : Fin C), i = ix2 r c := ⟨i 0, i 1, eq_ix2 i⟩
  rw [shapeCast_self, shapeCast_self]
  refine congrArg₂ (· + ·) ?_ (bias_rows_at b hbb r c)
  exact Cert.LibDot.matmul_zero_at d hl hr hln hrn hlb hrb none (truncf .bf16 x hx) (truncf .bf16 w hx) r c

include hl hr hln hrn hlb hrb in
/-- The host's dense layer: the general product, the bias row broadcast in place and added. -/
theorem host_affine (x : FVec Ideal ⟨2, ![R, K]⟩ .f32) (w : FVec Ideal ⟨2, ![K, C]⟩ .f32) (b : FVec Ideal ⟨2, ![1, C]⟩ .f32)
    (hb : (⟨2, ![1, C]⟩ : Shape).BroadcastsInDim ⟨2, ![R, C]⟩ (![0, 1] : Fin 2 → Fin (⟨2, ![R, C]⟩ : Shape).rank)) :
    addf (Host.dotGeneral d none x w) (broadcastInDim ⟨2, ![R, C]⟩ (![0, 1] : Fin 2 → Fin (⟨2, ![R, C]⟩ : Shape).rank) hb b)
      = affine x w b := by
  funext i
  obtain ⟨r, c, rfl⟩ : ∃ (r : Fin R) (c : Fin C), i = ix2 r c := ⟨i 0, i 1, eq_ix2 i⟩
  refine congrArg₂ (· + ·) ?_ (bias_rows_in_dim_at b hb r c)
  exact Cert.LibDot.dotGeneral_at d hl hr hln hrn hlb hrb none _ x w r c

end Spellings

/-- The vector unit's threshold: the maximum with the splat of the zero word. -/
theorem vector_relu {R C : Nat} (a : FVec Ideal ⟨2, ![R, C]⟩ .f32) :
    maximumf a (broadcast ⟨2, ![R, C]⟩ (Scalar.ofBits (F := Ideal) .f32 0x00000000#32)) = relu a := rfl

/-- The host's threshold: the maximum with the zero constant broadcast to the shape. -/
theorem host_relu {R C : Nat} (a : FVec Ideal ⟨2, ![R, C]⟩ .f32)
    (h : (⟨0, ![]⟩ : Shape).BroadcastsInDim ⟨2, ![R, C]⟩ (![] : Fin 0 → Fin (⟨2, ![R, C]⟩ : Shape).rank)) :
    maximumf a (broadcastInDim ⟨2, ![R, C]⟩ (![] : Fin 0 → Fin (⟨2, ![R, C]⟩ : Shape).rank) h (constant (F := Ideal) ⟨0, ![]⟩ .f32 0x00000000#32))
      = relu a := by
  funext i
  show max (a i) _ = max (a i) zeroWord
  rw [broadcastInDim_apply _ h _ i ix0 (fun a => a.elim0)]
  rfl

end Cert.Mlp

end
-- ==== Proof.KernelPayload.lean ====
/-
  What the kernel body stores, as the network: the body's one store holds, for a block of 2048 rows of the input
  matrix, the three dense layers and two thresholds applied to that block, with the weights and the bias rows as
  loaded. Each layer of the body is the vector unit's spelling of a dense layer; each threshold its spelling of
  the threshold.
-/
import proofs.«112510_j27573690040595_1_alg».proof.Proof.Gen.KernelIdeal.Skeleton
import proofs.«112510_j27573690040595_1_alg».proof.Proof.Mlp

noncomputable section

namespace Cert.KernelIdeal.Payload

open Cert.KernelIdeal Cert.KernelIdeal.Gen Idealize.ShloMosaic Cert.Mlp

/-- The stored value is the network of the loaded block, weights and bias rows. -/
theorem stored_eq_mlp (x0 : Vec Ideal S2048x768 .f32) (x1 : Vec Ideal S768x64 .f32) (x2 : Vec Ideal S1x64 .f32)
    (x3 : Vec Ideal S64x64 .f32) (x4 : Vec Ideal S1x64 .f32) (x5 : Vec Ideal S64x1 .f32) (x6 : Vec Ideal S1x1 .f32) :
    k0_pay1 (F := Ideal) x0 x1 x2 x3 x4 x5 x6 = mlp x0 x1 x2 x3 x4 x5 x6 := by
  unfold k0_pay1 mlp
  dsimp only
  rw [vector_affine dot_S2048x768_S768x64_S2048x64_1_0_0_1_n_n rfl rfl rfl rfl rfl rfl x0 x1 x2]
  rw [vector_relu]
  rw [vector_affine dot_S2048x64_S64x64_S2048x64_1_0_0_1_n_n rfl rfl rfl rfl rfl rfl _ x3 x4]
  rw [vector_relu]
  rw [vector_affine dot_S2048x64_S64x1_S2048x1_1_0_0_1_n_n rfl rfl rfl rfl rfl rfl _ x5 x6]

end Cert.KernelIdeal.Payload

end
-- ==== Proof.KernelArray.lean ====
/-
  The kernel's result array after the run, as one function of the arrays the region finds.

  The grid has 64 points. At point t the kernel reads rows 2048·t … 2048·t + 2047 of the input matrix and the whole
  of each weight matrix and bias row, and writes rows 2048·t … 2048·t + 2047 of the one-column result. What it
  writes is the network of that block of rows; since a row of the network's result reads only the same row of the
  input, this is the same block of rows of the network applied to the WHOLE input matrix. The 64 blocks tile the
  result array, so after the run the array is the network of the whole input matrix.
-/
import proofs.«112510_j27573690040595_1_alg».proof.Proof.Gen.KernelIdeal.Value
import proofs.«112510_j27573690040595_1_alg».proof.Proof.KernelPayload

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Mlp

variable (m : (ℓ : Loc nD τ sig) → Buf (Elt Ideal) ℓ) (ρ : Dev nD → PrngReg)

/-- The network of the whole input matrix, over the weights and bias rows as the region finds them. -/
def network (c : Dev nD) : Mat 131072 1 :=
  mlp (V m c main_arg0) (V m c main_v18) (V m c main_v57) (V m c main_v37) (V m c main_v58) (V m c main_v56) (V m c main_v59)

theorem zeros : (![0, 0] : Fin 2 → Nat) = fun _ => 0 := funext fun a => by fin_cases a <;> rfl

/-- The block indices, decided over the grid: point t reads block row t of the input matrix and writes block row t
    of the result; every other operand is its whole array at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- There are 64 points. -/
theorem point_lt (t : Fin cfg0.N) : t.val < 64 := lt_of_lt_of_eq t.isLt N_0

/-- Every block row of the result is some point's. -/
theorem block_row_onto : ∀ q : Fin 64, ∃ t : Fin cfg0.N, t.val = q.val :=
  (by decide +kernel : ∀ q : Fin 64, ∃ t : Fin grid0.N, t.val = q.val)

/-! ## The blocks a point reads -/

/-- The weights and bias rows are read whole at every point. -/
theorem block1 (c : Dev nD) (t : Fin cfg0.N) : (iblk m c 1 t : S768x64.Idx → EReal) = V m c main_v18 := by
  obtain ⟨-, -, e0, e1, -⟩ := block_indices t
  funext y
  show V m c main_v18 (((cfg0.win 1).blk t).view.emb y) = V m c main_v18 y
  refine congrArg _ (funext fun a => Fin.ext ?_)
  match a with
  | ⟨0, _⟩ => show win0_1.index t (0 : Fin 2) * 768 + 1 * (y 0).val = (y 0).val; omega
  | ⟨1, _⟩ => show win0_1.index t (1 : Fin 2) * 64 + 1 * (y 1).val = (y 1).val; omega

theorem block2 (c : Dev nD) (t : Fin cfg0.N) : (iblk m c 2 t : S1x64.Idx → EReal) = V m c main_v57 := by
  obtain ⟨-, -, -, -, e0, e1, -⟩ := block_indices t
  funext y
  show V m c main_v57 (((cfg0.win 2).blk t).view.emb y) = V m c main_v57 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem block3 (c : Dev nD) (t : Fin cfg0.N) : (iblk m c 3 t : S64x64.Idx → EReal) = V m c main_v37 := by
  obtain ⟨-, -, -, -, -, -, e0, e1, -⟩ := block_indices t
  funext y
  show V m c main_v37 (((cfg0.win 3).blk t).view.emb y) = V m c main_v37 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem block4 (c : Dev nD) (t : Fin cfg0.N) : (iblk m c 4 t : S1x64.Idx → EReal) = V m c main_v58 := by
  obtain ⟨-, -, -, -, -, -, -, -, e0, e1, -⟩ := block_indices t
  funext y
  show V m c main_v58 (((cfg0.win 4).blk t).view.emb y) = V m c main_v58 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem block5 (c : Dev nD) (t : Fin cfg0.N) : (iblk m c 5 t : S64x1.Idx → EReal) = V m c main_v56 := by
  obtain ⟨-, -, -, -, -, -, -, -, -, -, e0, e1, -⟩ := block_indices t
  funext y
  show V m c main_v56 (((cfg0.win 5).blk t).view.emb y) = V m c main_v56 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 1 + 1 * (y 1).val = (y 1).val; omega

theorem block6 (c : Dev nD) (t : Fin cfg0.N) : (iblk m c 6 t : S1x1.Idx → EReal) = V m c main_v59 := by
  obtain ⟨-, -, -, -, -, -, -, -, -, -, -, -, e0, e1, -⟩ := block_indices t
  funext y
  show V m c main_v59 (((cfg0.win 6).blk t).view.emb y) = V m c main_v59 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-- Row p of the input block at point t is row 2048·t + p of the input matrix. -/
theorem input_block_row (c : Dev nD) (t : Fin cfg0.N) (p : Fin 2048) (l : Fin 768) :
    (iblk m c 0 t : S2048x768.Idx → EReal) (ix2 p l)
      = V m c main_arg0 (ix2 (⟨t.val * 2048 + p.val, by have := point_lt t; have := p.isLt; omega⟩ : Fin 131072) l) := by
  obtain ⟨e0, e1, -⟩ := block_indices t
  show V m c main_arg0 (((cfg0.win 0).blk t).view.emb (ix2 p l)) = _
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 768 + 1 * l.val = l.val; omega

/-- Entry (p, u) of the result block at point t is entry (2048·t + p, u) of the result array. -/
theorem result_block_entry (t : Fin cfg0.N) (p : Fin 2048) (u : Fin 1) :
    ((cfg0.win 7).blk t).view.emb (ix2 p u)
      = ix2 (⟨t.val * 2048 + p.val, by have := point_lt t; have := p.isLt; omega⟩ : Fin 131072) u := by
  obtain ⟨-, -, -, -, -, -, -, -, -, -, -, -, -, -, e0, e1⟩ := block_indices t
  funext a
  apply Fin.ext
  match a with
  | ⟨0, _⟩ => show win0_7.index t (0 : Fin 2) * 2048 + 1 * p.val = t.val * 2048 + p.val; omega
  | ⟨1, _⟩ => show win0_7.index t (1 : Fin 2) * 1 + 1 * u.val = u.val; omega

/-! ## What a point writes back, and the array after the run -/

/-- What point t writes back is block t of the network of the whole input matrix. -/
theorem flushed_eq (c : Dev nD) (t : Fin cfg0.N) :
    (dats m 0 c).flushed 7 t = ((cfg0.win 7).blk t).view.read (Elt Ideal) (network m c) := by
  rw [Value.flushed7]
  unfold out0_7
  rw [View.canon_unit_zero zeros]
  simp only [View.ld_unit_zero (S := S2048x768) zeros, View.ld_unit_zero (S := S768x64) zeros,
    View.ld_unit_zero (S := S1x64) zeros, View.ld_unit_zero (S := S64x64) zeros, View.ld_unit_zero (S := S64x1) zeros,
    View.ld_unit_zero (S := S1x1) zeros]
  rw [Payload.stored_eq_mlp, block1 m c t, block2 m c t, block3 m c t, block4 m c t, block5 m c t, block6 m c t]
  funext j
  obtain ⟨p, u, rfl⟩ : ∃ (p : Fin 2048) (u : Fin 1), j = ix2 p u := ⟨j 0, j 1, eq_ix2 j⟩
  show mlp (iblk m c 0 t) (V m c main_v18) (V m c main_v57) (V m c main_v37) (V m c main_v58) (V m c main_v56) (V m c main_v59) (ix2 p u)
    = network m c (((cfg0.win 7).blk t).view.emb (ix2 p u))
  rw [result_block_entry t p u]
  unfold network
  exact mlp_rows _ _ _ _ _ _ _ _ p _ (fun l => input_block_row m c t p l) u

/-- An index of the result array is in point t's block iff each coordinate is in the block's range on its axis. -/
theorem mem_block (t : Fin cfg0.N) (i : S131072x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v60).slice (win0_7.rect t)).set ↔ _
  rw [View.set_slice_whole, Rect.mem_set_unit]
  exact Iff.rfl

/-- The 64 blocks tile the result array: row r is in the block of point r / 2048. -/
theorem covered (i : S131072x1.Idx) : ∃ t : Fin cfg0.N, (cfg0.win 7).flush t = true ∧ i ∈ ((cfg0.win 7).blk t).view.set := by
  have hi0 : (i 0).val < 131072 := (i 0).isLt
  have hi1 : (i 1).val < 1 := (i 1).isLt
  obtain ⟨t, ht⟩ := block_row_onto ⟨(i 0).val / 2048, by omega⟩
  have ht' : t.val = (i 0).val / 2048 := ht
  obtain ⟨-, -, -, -, -, -, -, -, -, -, -, -, -, -, e0, e1⟩ := block_indices t
  refine ⟨t, flush0_7 t, ?_⟩
  rw [mem_block]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 1 ≤ (i 1).val ∧ (i 1).val < win0_7.index t (1 : Fin 2) * 1 + 1; omega

/-- The result array after the run is the network of the whole input matrix. -/
theorem final (c : Dev nD) : (dats m 0 c).arrAt 7 cfg0.N = network m c :=
  (dats m 0 c).arrAt_eq_of_cover 7 (network m c) (fun t _ => flushed_eq m c t) covered

/-- The run, with the result array named. -/
theorem run : θ_run defs (onTc (τ := τ) (main (F := Ideal))) ⟨m, fun _ => 0, ρ⟩ fun r => ∀ c : Dev nD,
      r.2.mem ((c : Thread nD τ).loc main_v60) = network m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefValue.lean ====
/-
  What the reference computes, as the network: its result is the three dense layers and two thresholds applied to
  the whole input matrix, with the densified weights and the bias vectors laid out as rows. Each layer is the host's
  spelling of a dense layer (a general product, the bias row broadcast in place), each threshold the host's.
-/
import proofs.«112510_j27573690040595_1_alg».proof.Proof.Gen.ReferenceIdeal.Read
import proofs.«112510_j27573690040595_1_alg».proof.Proof.Mlp

noncomputable section

namespace Cert.ReferenceIdeal.RefValue

open Cert.ReferenceIdeal Cert.ReferenceIdeal.Gen Cert.ReferenceIdeal.Read Idealize.ShloMosaic Cert.Mlp

/-- The reference's result stage is the network of the input matrix, the three densified weight matrices and the
    three bias rows. -/
theorem result_eq_mlp (x0 : (⟨S131072x768, .f32⟩ : BufTy).Contents (Elt Ideal)) (x1 : (⟨S2x4915, .i32⟩ : BufTy).Contents (Elt Ideal))
    (x2 : (⟨S4915, .f32⟩ : BufTy).Contents (Elt Ideal)) (x3 : (⟨S64, .f32⟩ : BufTy).Contents (Elt Ideal))
    (x4 : (⟨S2x409, .i32⟩ : BufTy).Contents (Elt Ideal)) (x5 : (⟨S409, .f32⟩ : BufTy).Contents (Elt Ideal))
    (x6 : (⟨S64, .f32⟩ : BufTy).Contents (Elt Ideal)) (x7 : (⟨S2x32, .i32⟩ : BufTy).Contents (Elt Ideal))
    (x8 : (⟨S32, .f32⟩ : BufTy).Contents (Elt Ideal)) (x9 : (⟨S1, .f32⟩ : BufTy).Contents (Elt Ideal)) :
    val_main_v70 (F := Ideal) x0 x1 x2 x3 x4 x5 x6 x7 x8 x9
      = mlp x0 (val_main_v18 (F := Ideal) x1 x2) (val_main_v58 (F := Ideal) x3) (val_main_v37 (F := Ideal) x4 x5)
          (val_main_v63 (F := Ideal) x6) (val_main_v56 (F := Ideal) x7 x8) (val_main_v68 (F := Ideal) x9) := by
  unfold val_main_v70 val_main_v69 val_main_v67 val_main_v66 val_main_call1_v0 val_main_call1_cst val_main_v65
    val_main_v64 val_main_v62 val_main_v61 val_main_call0_v0 val_main_call0_cst val_main_v60 val_main_v59 val_main_v57 mlp
  rw [host_affine dot_S131072x768_S768x64_S131072x64_1_0_0_1_n_n rfl rfl rfl rfl rfl rfl x0 (val_main_v18 (F := Ideal) x1 x2) (val_main_v58 (F := Ideal) x3)]
  rw [host_relu]
  rw [host_affine dot_S131072x64_S64x64_S131072x64_1_0_0_1_n_n rfl rfl rfl rfl rfl rfl _ (val_main_v37 (F := Ideal) x4 x5) (val_main_v63 (F := Ideal) x6)]
  rw [host_relu]
  rw [host_affine dot_S131072x64_S64x1_S131072x1_1_0_0_1_n_n rfl rfl rfl rfl rfl rfl _ (val_main_v56 (F := Ideal) x7 x8) (val_main_v68 (F := Ideal) x9)]

end Cert.ReferenceIdeal.RefValue

end
-- ==== Proof.lean ====
/-
  A three-layer perceptron on 131072 rows of 768 features: each layer's weight matrix arrives as a list of
  coordinates and values and is made dense by adding every value into a zero matrix at its (wrapped) coordinates;
  then x · W1 + b1, the threshold at zero, · W2 + b2, the threshold, · W3 + b3, one output per row.

  The kernel makes the three dense matrices on the host exactly as the reference does, recasts the bias vectors as
  rows, and runs one grid of 64 points; point t takes rows 2048·t … 2048·t + 2047 of x through all three layers and
  writes the same rows of the result. Its narrowing of the operands before each product is the identity on the
  extended reals, and a product accumulated into zero is the host's general product: the same sum over the shared
  axis. A row of the result reads only that row of x, so the 64 blocks are the rows of ONE function of the whole
  matrix, the function the reference computes in one piece. No law beyond that is used: the two programs add and
  multiply the same numbers in the same arrangement, and the precondition is never opened.

  The frames are the generated ones (the reference's: its run with the result dropped); the idealization rewrote
  nothing, so there is nothing to preserve.
-/
import proofs.«112510_j27573690040595_1_alg».proof.Defs
import proofs.«112510_j27573690040595_1_alg».proof.Proof.Gen.Kernel
import proofs.«112510_j27573690040595_1_alg».proof.Proof.Gen.Kernel.Skeleton
import proofs.«112510_j27573690040595_1_alg».proof.Proof.Gen.Kernel.Launch
import proofs.«112510_j27573690040595_1_alg».proof.Proof.Gen.Kernel.Points
import proofs.«112510_j27573690040595_1_alg».proof.Proof.Gen.Kernel.Frame
import proofs.«112510_j27573690040595_1_alg».proof.Proof.Gen.KernelIdeal
import proofs.«112510_j27573690040595_1_alg».proof.Proof.Gen.KernelIdeal.Skeleton
import proofs.«112510_j27573690040595_1_alg».proof.Proof.Gen.KernelIdeal.Launch
import proofs.«112510_j27573690040595_1_alg».proof.Proof.Gen.KernelIdeal.Points
import proofs.«112510_j27573690040595_1_alg».proof.Proof.Gen.KernelIdeal.Frame
import proofs.«112510_j27573690040595_1_alg».proof.Proof.Gen.ReferenceIdeal
import proofs.«112510_j27573690040595_1_alg».proof.Proof.Gen.Pre_finite_inputs
import proofs.«112510_j27573690040595_1_alg».proof.Proof.Gen.KernelIdeal.Value
import proofs.«112510_j27573690040595_1_alg».proof.Proof.Gen.ReferenceIdeal.Run
import proofs.«112510_j27573690040595_1_alg».proof.Proof.Gen.ReferenceIdeal.Read
import proofs.«112510_j27573690040595_1_alg».proof.Proof.HostArrays
import proofs.«112510_j27573690040595_1_alg».proof.Proof.KernelArray
import proofs.«112510_j27573690040595_1_alg».proof.Proof.RefValue
import Idealize.ShloMosaic.Adequacy
import Idealize.ShloMosaic.Init

noncomputable section

namespace Cert.Proof

open Idealize.ShloMosaic Idealize.ShloMosaic.TcCoe Idealize.SL.Sem

/-- The kernel's result array, the network of the whole input matrix over the arrays the region finds, is the
    reference's result stage of the same arguments: the region finds the input matrix as launched, the reference's
    three dense matrices and the reference's three bias rows. -/
theorem network_eq_reference (m : (ℓ : Loc Cert.KernelIdeal.nD Cert.KernelIdeal.τ Cert.KernelIdeal.sig) → Buf (Elt Ideal) ℓ)
    (c : Dev Cert.KernelIdeal.nD) :
    Cert.KernelIdeal.Whole.network m c
      = Cert.ReferenceIdeal.Read.val_main_v70 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9)) := by
  rw [Cert.ReferenceIdeal.RefValue.result_eq_mlp]
  unfold Cert.KernelIdeal.Whole.network
  rw [Cert.KernelIdeal.Gen.V_main_arg0, Cert.KernelIdeal.HostArrays.weights1, Cert.KernelIdeal.HostArrays.weights2,
    Cert.KernelIdeal.HostArrays.weights3, Cert.KernelIdeal.HostArrays.bias1, Cert.KernelIdeal.HostArrays.bias2,
    Cert.KernelIdeal.HostArrays.bias3]

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the input matrix, the densified weights and the bias rows of arguments
    that agree. -/
theorem algebraic : Cert.algebraic_KernelIdeal_ReferenceIdeal := by
  intro m ρ m' ρ' _ hagree
  refine ⟨fun c => Cert.KernelIdeal.Whole.network m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v70_eq, h0, h1, h2, h3, h4, h5, h6, h7, h8, h9]
  exact (network_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
